-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x8x2048x2048 : Shape := ⟨4, ![4, 8, 2048, 2048]⟩
abbrev S4x2048x2048 : Shape := ⟨3, ![4, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  main_v18

def fn {F : FTy → Type} [FloatOps F] (main_arg0 : FVec F S4x8x2048x64 .f32) (main_arg1 : FVec F S4x8x2048x64 .f32) (main_arg2 : FVec F S4x8x2048x64 .f32) (main_arg3 : IVec S4x8x2048x2048 1) (main_arg4 : FVec F S4x2048x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x2048x2048 .f32 := Host.absf main_arg4
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_v13 main_v16
-- ==== Kernel.lean ====
abbrev S4x8x2048x64 : Shape := ⟨4, ![4, 8, 2048, 64]⟩
abbrev S4x8x2048x2048 : Shape := ⟨4, ![4, 8, 2048, 2048]⟩
abbrev S4x2048x2048 : Shape := ⟨3, ![4, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .i1⟩
  | .hbm, ⟨4, _⟩ => ⟨S4x2048x2048, .f32⟩
  | .hbm, ⟨5, _⟩ => ⟨S4x8x2048x2048, .i32⟩
  | .hbm, ⟨6, _⟩ => ⟨S4x8x2048x64, .f32⟩
  | .hbm, ⟨7, _⟩ => ⟨S4x8x2048x2048, .f32⟩
  | .hbm, ⟨8, _⟩ => ⟨S4x8x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x256x2048, .i32⟩
  | .local _ .vmem, ⟨7, _⟩ => ⟨S1x1x256x2048, .i32⟩
  | .local _ .vmem, ⟨8, _⟩ => ⟨S1x256x2048, .f32⟩
  | .local _ .vmem, ⟨9, _⟩ => ⟨S1x256x2048, .f32⟩
  | .local _ .vmem, ⟨10, _⟩ => ⟨S1x1x256x64, .f32⟩
  | .local _ .vmem, ⟨11, _⟩ => ⟨S1x1x256x64, .f32⟩
  | .local _ .vmem, ⟨12, _⟩ => ⟨S1x1x256x2048, .f32⟩
  | .local _ .vmem, ⟨13, _⟩ => ⟨S1x1x256x2048, .f32⟩
  | .local _ .vmem, ⟨14, _⟩ => ⟨S1x1x256x2048, .f32⟩
  | .local _ .vmem, ⟨15, _⟩ => ⟨S1x1x256x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  natLt_1_32 : 1 < 32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x8x2048x64.size a
  hwx0_0 : ∀ i : grid0.Coords, EltTy.bits .f32 = 32 ∨ (Rect.block (s := S4x8x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x8x2048x64.size a
  hwx0_1 : ∀ i : grid0.Coords, EltTy.bits .f32 = 32 ∨ (Rect.block (s := S4x8x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x8x2048x64.size a
  hwx0_2 : ∀ i : grid0.Coords, EltTy.bits .f32 = 32 ∨ (Rect.block (s := S4x8x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x8x2048x2048.size a
  hwx0_3 : ∀ i : grid0.Coords, EltTy.bits .i32 = 32 ∨ (Rect.block (s := S4x8x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x2048x2048.size a
  hwx0_4 : ∀ i : grid0.Coords, EltTy.bits .f32 = 32 ∨ (Rect.block (s := S4x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x64.size a ≤ S4x8x2048x64.size a
  hwx0_5 : ∀ i : grid0.Coords, EltTy.bits .f32 = 32 ∨ (Rect.block (s := S4x8x2048x64) S1x1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x2048.size a ≤ S4x8x2048x2048.size a
  hwx0_6 : ∀ i : grid0.Coords, EltTy.bits .f32 = 32 ∨ (Rect.block (s := S4x8x2048x2048) S1x1x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256x2048.size a ≤ S4x8x2048x2048.size a
  hwx0_7 : ∀ i : grid0.Coords, EltTy.bits .f32 = 32 ∨ (Rect.block (s := S4x8x2048x2048) S1x1x256x2048.size (cc0_transform_7 i) (hinb0_7 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x1x256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S1x1x256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x8x2048x2048 : Shape := ⟨4, ![4, 8, 2048, 2048]⟩
abbrev S4x2048x2048 : Shape := ⟨3, ![4, 2048, 2048]⟩
abbrev S_ : Shape := ⟨0, ![]⟩
abbrev S4x1x2048x2048 : Shape := ⟨4, ![4, 1, 2048, 2048]⟩
abbrev S4x8x2048 : Shape := ⟨3, ![4, 8, 2048]⟩
abbrev S4x8x2048x1 : Shape := ⟨4, ![4, 8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .i1⟩
  | .hbm, ⟨4, _⟩ => ⟨S4x2048x2048, .f32⟩
  | .hbm, ⟨5, _⟩ => ⟨S4x8x2048x2048, .f32⟩
  | .hbm, ⟨6, _⟩ => ⟨S_, .f32⟩
  | .hbm, ⟨7, _⟩ => ⟨S4x8x2048x2048, .f32⟩
  | .hbm, ⟨8, _⟩ => ⟨S4x8x2048x2048, .f32⟩
  | .hbm, ⟨9, _⟩ => ⟨S4x1x2048x2048, .f32⟩
  | .hbm, ⟨10, _⟩ => ⟨S4x8x2048x2048, .f32⟩
  | .hbm, ⟨11, _⟩ => ⟨S4x8x2048x2048, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S_, .f32⟩
  | .hbm, ⟨16, _⟩ => ⟨S4x8x2048, .f32⟩
  | .hbm, ⟨17, _⟩ => ⟨S_, .f32⟩
  | .hbm, ⟨18, _⟩ => ⟨S4x8x2048, .f32⟩
  | .hbm, ⟨19, _⟩ => ⟨S4x8x2048, .f32⟩
  | .hbm, ⟨20, _⟩ => ⟨S4x8x2048x1, .f32⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048, .f32⟩
  | .hbm, ⟨26, _⟩ => ⟨S4x8x2048x1, .f32⟩
  | .hbm, ⟨27, _⟩ => ⟨S4x8x2048x2048, .f32⟩
  | .hbm, ⟨28, _⟩ => ⟨S4x8x2048x2048, .f32⟩
  | .hbm, ⟨29, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.AttentionSpec.lean ====
import Idealize.ShloMosaic.PureOps.Ideal.Laws
import Idealize.ShloMosaic.Lib.ValueIdx

/-!
# Masked, biased attention, one query row at a time, on the extended reals

For one query row `q : Fin 64 → EReal`, the keys `k` and values `v` of its head (`2048` rows of `64`), the row's mask
bits `mk` and the row's additive bias `e`:

* `score q k mk e j` is `-1e9` where the mask bit is set and `(∑ d, q d · k j d) · 1/8 + e j` elsewhere;
* `rowMax s` is the maximum of the row's scores, folded from `-∞`;
* `expo s j = exp (s j - rowMax s)`, `rowSum s = ∑ j, expo s j`, `weight s j = expo s j / rowSum s` is the softmax;
* `mix s v d = ∑ j, weight s j · v j d` is the row of the context.

The three arrays a program returns are these, read row by row out of the rank-4 arguments (`scoresG`, `attnG`,
`ctxG`). Both the tiled kernel and the whole-array reference compute exactly these functions, so no algebraic law beyond
re-indexing a sum is needed, and nothing here asks the inputs to be finite.
-/

noncomputable section

namespace Cert.Attention

open Idealize.ShloMosaic Idealize.ShloMosaic.ValueIdx

/-! ## One row -/

/-- The masked, scaled and biased score of the row against key `j`. -/
def score (q : Fin 64 → EReal) (k : Fin 2048 → Fin 64 → EReal) (mk : Fin 2048 → BitVec 1) (e : Fin 2048 → EReal)
    (j : Fin 2048) : EReal :=
  Scalar.select (mk j) (Ideal.ofBits .f32 0xCE6E6B28#32)
    ((∑ d : Fin 64, q d * k j d) * Ideal.ofBits .f32 0x3E000000#32 + e j)

/-- The row's largest score, folded from `-∞`. -/
def rowMax (s : Fin 2048 → EReal) : EReal :=
  (Finset.univ : Finset (Fin 2048)).fold max (Ideal.ofBits .f32 0xFF800000#32) s

/-- The exponential of a score's distance below the row's maximum. -/
def expo (s : Fin 2048 → EReal) (j : Fin 2048) : EReal := Ideal.exp (s j - rowMax s)

/-- The softmax's denominator. -/
def rowSum (s : Fin 2048 → EReal) : EReal := ∑ j : Fin 2048, expo s j

/-- The softmax weight of key `j`. -/
def weight (s : Fin 2048 → EReal) (j : Fin 2048) : EReal := Ideal.div (expo s j) (rowSum s)

/-- The row of the context: the values mixed by the softmax weights. -/
def mix (s : Fin 2048 → EReal) (v : Fin 2048 → Fin 64 → EReal) (d : Fin 64) : EReal :=
  ∑ j : Fin 2048, weight s j * v j d

/-! ## Small facts both programs meet -/

/-- Widening a mask bit to a 32-bit word and asking whether the word is nonzero gives the bit back. -/
theorem ne_zero_of_widened (b : BitVec 1) : IntOp.cmpi .ne (b.setWidth 32) 0#32 = b := by
  by_cases h : b = 1#1
  · subst h; decide
  · have h0 := eq_zero_of_ne_one h; subst h0; decide

/-- The pattern of `-∞` is the bottom of the extended reals, so a maximum against it is the other operand. -/
theorem max_negInf (x : EReal) : max (Ideal.ofBits .f32 0xFF800000#32) x = x := by
  simp [Ideal.ofBits, Ideal.ieee]

/-! ## The three result arrays, from the rank-4 arguments -/

abbrev SQ : Shape := ⟨4, ![4, 8, 2048, 64]⟩
abbrev SS : Shape := ⟨4, ![4, 8, 2048, 2048]⟩
abbrev SE : Shape := ⟨3, ![4, 2048, 2048]⟩

/-- The scores of batch `b`, head `h`, query `r`, as a row over the keys. -/
def scoreRow (Q K : SQ.Idx → EReal) (M : SS.Idx → BitVec 1) (E : SE.Idx → EReal) (b : Fin 4) (h : Fin 8) (r : Fin 2048) :
    Fin 2048 → EReal :=
  score (fun d => Q (ix4 b h r d)) (fun j d => K (ix4 b h j d)) (fun j => M (ix4 b h r j)) (fun j => E (ix3 b r j))

/-- The masked scores. -/
def scoresG (Q K : SQ.Idx → EReal) (M : SS.Idx → BitVec 1) (E : SE.Idx → EReal) : SS.Idx → EReal :=
  fun i => scoreRow Q K M E (i 0) (i 1) (i 2) (i 3)

/-- The attention weights: each row's softmax. -/
def attnG (Q K : SQ.Idx → EReal) (M : SS.Idx → BitVec 1) (E : SE.Idx → EReal) : SS.Idx → EReal :=
  fun i => weight (scoreRow Q K M E (i 0) (i 1) (i 2)) (i 3)

/-- The context: each row's weights applied to the head's values. -/
def ctxG (Q K V : SQ.Idx → EReal) (M : SS.Idx → BitVec 1) (E : SE.Idx → EReal) : SQ.Idx → EReal :=
  fun i => mix (scoreRow Q K M E (i 0) (i 1) (i 2)) (fun j d => V (ix4 (i 0) (i 1) j d)) (i 3)

end Cert.Attention

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.LibRowFold.lean ====
import Idealize.ShloMosaic.PureOps.Ideal.Laws
import Idealize.ShloMosaic.Lib.ValueIdx
import Idealize.ShloMosaic.Lib.Pipeline.Value

/-!
# A tile with two leading unit axes, and a row's maximum as a fold

A pipelined kernel that squeezes the batch and head axes of a rank-4 array sees each block as `[1, 1, a, b]` and casts it
to the matrix `[a, b]` on the way in and back on the way out: the matrix at `(i, j)` is the block at `(0, 0, i, j)`.
A `vector.multi_reduction <maximumf>` of an `[a, b]` matrix over axis 1 is, on the extended reals, at row `i` the fold of
`max` over the row's entries, started from the accumulator's value.
-/

noncomputable section

namespace Cert.LibRowFold

open Idealize.ShloMosaic Idealize.ShloMosaic.ValueIdx

variable {α : Type}

/-- A `[1, 1, a, b]` block cast to the matrix `[a, b]` reads, at `(i, j)`, the block at `(0, 0, i, j)`: both sit at
    row-major position `i · b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- The matrix `[a, b]` cast to a `[1, 1, a, b]` block reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

/-- On the extended reals a `vector.multi_reduction <maximumf>` of an `[a, b]` matrix over axis 1 is, at row `i`, the
    fold of `max` from the accumulator's value over the entries `(i, k)` of the row. -/
theorem rowMax_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f) (funext fun k => ?_)
  refine congrArg src (funext fun ax => Fin.ext ?_)
  match ax with
  | ⟨0, _⟩ => rfl
  | ⟨1, _⟩ => rfl

end Cert.LibRowFold

end
-- ==== Proof.Tile.lean ====
import proofs.«101123_j86955907875523_1_alg».proof.Proof.Gen.KernelIdeal.Skeleton
import proofs.«101123_j86955907875523_1_alg».proof.Proof.AttentionSpec
import proofs.«101123_j86955907875523_1_alg».proof.Proof.LibContract
import proofs.«101123_j86955907875523_1_alg».proof.Proof.LibKeepdims
import proofs.«101123_j86955907875523_1_alg».proof.Proof.LibRowFold
import Idealize.ShloMosaic.Lib.ValueLayout

/-!
# One tile of the kernel, read at an entry

At a grid point the body holds a block of 256 query rows (`P0`), the head's 2048 keys (`P1`), the tile's bias rows
(`P2`) and its mask words (`P3`), and later the head's values. Row `r` of the tile is a row of scores over the keys
(`tileRow`): the product `q · kᵀ` (the keys transposed, then a plain contraction into zero) times `1/8`, plus the bias,
with `-1e9` selected where the mask word is nonzero. The three stored blocks are, entry by entry, that score, its row's
softmax weight, and the weights applied to the values. Format changes are the identity on the extended reals.
-/

noncomputable section

namespace Cert.KernelIdeal.Tile

open Cert.KernelIdeal Cert.KernelIdeal.Gen Idealize.ShloMosaic Idealize.ShloMosaic.ValueIdx Cert.Attention
open Cert.LibRowFold Cert.LibKeepdims

variable (P0 : Vec Ideal S1x1x256x64 .f32) (P1 : Vec Ideal S1x1x2048x64 .f32) (P2 : Vec Ideal S1x256x2048 .f32)
  (P3 : Vec Ideal S1x1x256x2048 .i32)

/-- Row `r` of the tile as a row of scores over the keys: the query row, the key block, the row's mask words tested
    against zero, the row of the bias block. -/
def tileRow (r : Fin 256) : Fin 2048 → EReal :=
  score (fun d => P0 (ix4 (0 : Fin 1) (0 : Fin 1) r d)) (fun j d => P1 (ix4 (0 : Fin 1) (0 : Fin 1) j d))
    (fun j => IntOp.cmpi .ne (P3 (ix4 (0 : Fin 1) (0 : Fin 1) r j)) 0#32) (fun j => P2 (ix3 (0 : Fin 1) r j))

/-- The product of the query block with the transposed key block, at `(r, j)`: the sum over the head dimension of
    `q[r, d] · k[j, d]`. -/
theorem qk_apply (r : Fin 256) (j : Fin 2048) :
    matmul dot_S256x64_S64x2048_S256x2048_1_0_0_1_n_n none
      (truncf .bf16 (shapeCast S256x64 P0 shapeCasts_S1x1x256x64_S256x64) bitsLt_bf16_f32)
      (transpose S64x2048 [1, 0] (truncf .bf16 (shapeCast S2048x64 P1 shapeCasts_S1x1x2048x64_S2048x64) bitsLt_bf16_f32)
        transposes_S2048x64_p1_0_S64x2048)
      (constant (F := Ideal) S256x2048 .f32 0x00000000#32) (ix2 r j)
    = ∑ d : Fin 64, P0 (ix4 (0 : Fin 1) (0 : Fin 1) r d) * P1 (ix4 (0 : Fin 1) (0 : Fin 1) j d) := by
  refine (Cert.LibDense.matmul_plain_zero_apply 256 64 2048 none _ _ r j).trans ?_
  refine Finset.sum_congr rfl fun d _ => ?_
  refine congrArg₂ (· * ·) ?_ ?_
  · exact shapeCast_11ab_ab_apply P0 _ r d
  · exact (transpose_ix2_apply _ _ d j).trans (shapeCast_11ab_ab_apply P1 _ j d)

/-- The masked score the body stores, at `(r, j)`. -/
theorem pay5_apply (r : Fin 256) (j : Fin 2048) :
    k0_pay5 P0 P1 P2 P3 (ix2 r j) = tileRow P0 P1 P2 P3 r j := by
  have h0 : k0_pay5 P0 P1 P2 P3 (ix2 r j)
      = Scalar.select (IntOp.cmpi .ne (shapeCast S256x2048 P3 shapeCasts_S1x1x256x2048_S256x2048 (ix2 r j)) 0#32)
          (Ideal.ofBits .f32 0xCE6E6B28#32)
          ((matmul dot_S256x64_S64x2048_S256x2048_1_0_0_1_n_n none
              (truncf .bf16 (shapeCast S256x64 P0 shapeCasts_S1x1x256x64_S256x64) bitsLt_bf16_f32)
              (transpose S64x2048 [1, 0] (truncf .bf16 (shapeCast S2048x64 P1 shapeCasts_S1x1x2048x64_S2048x64) bitsLt_bf16_f32)
                transposes_S2048x64_p1_0_S64x2048)
              (constant (F := Ideal) S256x2048 .f32 0x00000000#32) (ix2 r j) : EReal) * Ideal.ofBits .f32 0x3E000000#32
            + (shapeCast S256x2048 P2 shapeCasts_S1x256x2048_S256x2048 (ix2 r j) : EReal)) := rfl
  rw [h0, qk_apply, shapeCast_11ab_ab_apply P3, shapeCast_1ab_ab_apply P2]
  rfl

/-- The score less its row's maximum, at `(r, j)`. -/
theorem pay7_apply (r : Fin 256) (j : Fin 2048) :
    k0_pay7 P0 P1 P2 P3 (ix2 r j) = tileRow P0 P1 P2 P3 r j - rowMax (tileRow P0 P1 P2 P3 r) := by
  have h0 : k0_pay7 P0 P1 P2 P3 (ix2 r j)
      = (k0_pay5 P0 P1 P2 P3 (ix2 r j) : EReal)
        - (broadcastTo S256x2048 (shapeCast S256x1 (multiReduction .maximumf [1] S256 (k0_pay5 P0 P1 P2 P3) 0xFF800000#32
            reduces_S256x2048_S256 (.inl rfl) rfl) shapeCasts_S256_S256x1) broadcasts_S256x1_S256x2048 (ix2 r j) : EReal) := rfl
  have hm : multiReduction .maximumf [1] S256 (k0_pay5 P0 P1 P2 P3) 0xFF800000#32 reduces_S256x2048_S256 (.inl rfl) rfl (ix1 r)
      = rowMax (tileRow P0 P1 P2 P3 r) := by
    refine (rowMax_apply (k0_pay5 P0 P1 P2 P3) 0xFF800000#32 reduces_S256x2048_S256 (.inl rfl) rfl r).trans ?_
    unfold rowMax
    exact congrArg (fun f => (Finset.univ : Finset (Fin 2048)).fold max (Ideal.ofBits .f32 0xFF800000#32) f)
      (funext fun k => pay5_apply P0 P1 P2 P3 r k)
  rw [h0, broadcastTo_a1_ab_apply, shapeCast_a_a1_apply, pay5_apply]
  exact congrArg (fun z => tileRow P0 P1 P2 P3 r j - z) hm

/-- The softmax of a matrix of shifted scores, at `(r, j)`: the exponential over the row's sum of exponentials. -/
theorem pay1_apply (x : FVec Ideal S256x2048 .f32) (r : Fin 256) (j : Fin 2048) :
    k0_pay1 x (ix2 r j) = Ideal.div (Ideal.exp (x (ix2 r j))) (∑ k : Fin 2048, Ideal.exp (x (ix2 r k))) := by
  have h0 : k0_pay1 x (ix2 r j) = Ideal.div (Ideal.exp (x (ix2 r j)))
      (broadcastTo S256x2048 (shapeCast S256x1 (multiReduction .add [1] S256 (exp x) 0x00000000#32
        reduces_S256x2048_S256 (.inl rfl) rfl) shapeCasts_S256_S256x1) broadcasts_S256x1_S256x2048 (ix2 r j)) := rfl
  have hs : multiReduction .add [1] S256 (exp x) 0x00000000#32 reduces_S256x2048_S256 (.inl rfl) rfl (ix1 r)
      = ∑ k : Fin 2048, Ideal.exp (x (ix2 r k)) :=
    rowSum_apply (exp x) 0x00000000#32 reduces_S256x2048_S256 (.inl rfl) rfl r
  rw [h0, broadcastTo_a1_ab_apply, shapeCast_a_a1_apply]
  exact congrArg (fun z => Ideal.div (Ideal.exp (x (ix2 r j))) z) hs

/-- The softmax weight the body forms, at `(r, j)`. -/
theorem attn_apply (r : Fin 256) (j : Fin 2048) :
    k0_pay1 (k0_pay7 P0 P1 P2 P3) (ix2 r j) = weight (tileRow P0 P1 P2 P3 r) j := by
  rw [pay1_apply, pay7_apply]
  unfold weight rowSum expo
  exact congrArg (fun f : Fin 2048 → EReal =>
      Ideal.div (Ideal.exp (tileRow P0 P1 P2 P3 r j - rowMax (tileRow P0 P1 P2 P3 r))) (∑ k : Fin 2048, f k))
    (funext fun k => congrArg Ideal.exp (pay7_apply P0 P1 P2 P3 r k))

/-- The stored block of scores, at `(u, v, r, j)`. -/
theorem scoresTile_apply (u v : Fin 1) (r : Fin 256) (j : Fin 2048) :
    k0_pay6 P0 P1 P2 P3 (ix4 u v r j) = tileRow P0 P1 P2 P3 r j := by
  have h0 : k0_pay6 P0 P1 P2 P3
      = shapeCast S1x1x256x2048 (k0_pay5 P0 P1 P2 P3) shapeCasts_S256x2048_S1x1x256x2048 := rfl
  rw [h0, shapeCast_ab_11ab_apply, pay5_apply]

/-- The stored block of attention weights, at `(u, v, r, j)`. -/
theorem attnTile_apply (u v : Fin 1) (r : Fin 256) (j : Fin 2048) :
    k0_pay2 (k0_pay7 P0 P1 P2 P3) (ix4 u v r j) = weight (tileRow P0 P1 P2 P3 r) j := by
  have h0 : k0_pay2 (k0_pay7 P0 P1 P2 P3)
      = shapeCast S1x1x256x2048 (k0_pay1 (k0_pay7 P0 P1 P2 P3)) shapeCasts_S256x2048_S1x1x256x2048 := rfl
  rw [h0, shapeCast_ab_11ab_apply, attn_apply]

/-- The stored block of the context, at `(u, v, r, d)`: the row's weights applied to the value block `X2`. -/
theorem ctxTile_apply (X2 : Vec Ideal S1x1x2048x64 .f32) (u v : Fin 1) (r : Fin 256) (d : Fin 64) :
    k0_pay3 (k0_pay4 X2) (k0_pay7 P0 P1 P2 P3) (ix4 u v r d)
      = mix (tileRow P0 P1 P2 P3 r) (fun j d => X2 (ix4 (0 : Fin 1) (0 : Fin 1) j d)) d := by
  have h0 : k0_pay3 (k0_pay4 X2) (k0_pay7 P0 P1 P2 P3)
      = shapeCast S1x1x256x64 (matmul dot_S256x2048_S2048x64_S256x64_1_0_0_1_n_n none
          (truncf .bf16 (k0_pay1 (k0_pay7 P0 P1 P2 P3)) bitsLt_bf16_f32)
          (truncf .bf16 (shapeCast S2048x64 X2 shapeCasts_S1x1x2048x64_S2048x64) bitsLt_bf16_f32)
          (constant (F := Ideal) S256x64 .f32 0x00000000#32)) shapeCasts_S256x64_S1x1x256x64 := rfl
  rw [h0, shapeCast_ab_11ab_apply]
  refine (Cert.LibDense.matmul_plain_zero_apply 256 2048 64 none _ _ r d).trans ?_
  unfold mix
  refine Finset.sum_congr rfl fun j _ => ?_
  refine congrArg₂ (· * ·) ?_ ?_
  · exact attn_apply P0 P1 P2 P3 r j
  · exact shapeCast_11ab_ab_apply X2 _ j d

end Cert.KernelIdeal.Tile

end
-- ==== Proof.Arrays.lean ====
import proofs.«101123_j86955907875523_1_alg».proof.Proof.Gen.KernelIdeal.Value
import proofs.«101123_j86955907875523_1_alg».proof.Proof.Tile
import Idealize.ShloMosaic.Lib.StableHlo.Run

/-!
# From the tiles to the three arrays

The grid runs over batch `b`, head `h` and query tile `qi`. At a point the q-block, the mask block and the bias block hold
rows `qi · 256 + r` of their arrays (the bias has no head axis), the key and value blocks hold the whole head, and the
three output blocks are rows `qi · 256 + r` of batch `b`, head `h`. The mask array the region finds is the argument's
bits widened to 32-bit words, so testing a word against zero gives the bit back. Hence the block a point writes back is
the block of `scoresG`, `attnG` or `ctxG` of the argument arrays at that point; the 256 blocks tile each array, so
after the run each array is that function whole.
-/

set_option maxRecDepth 16384

noncomputable section

namespace Cert.KernelIdeal.Arrays

open Cert.KernelIdeal Cert.KernelIdeal.Gen Cert.KernelIdeal.Tile Idealize.ShloMosaic Idealize.ShloMosaic.TcCoe
open Idealize.SL.Sem Idealize.ShloMosaic.ValueIdx Cert.Attention
open Idealize.ShloMosaic.Pipeline (Dat)

variable (m : (ℓ : Loc nD τ sig) → Buf (Elt Ideal) ℓ) (ρ : Dev nD → PrngReg)

/-! ## The argument arrays, by their literal types -/

abbrev Qa (c : Dev nD) : S4x8x2048x64.Idx → EReal := m ((c : Thread nD τ).loc main_arg0)
abbrev Ka (c : Dev nD) : S4x8x2048x64.Idx → EReal := m ((c : Thread nD τ).loc main_arg1)
abbrev Va (c : Dev nD) : S4x8x2048x64.Idx → EReal := m ((c : Thread nD τ).loc main_arg2)
abbrev Ma (c : Dev nD) : S4x8x2048x2048.Idx → BitVec 1 := m ((c : Thread nD τ).loc main_arg3)
abbrev Ea (c : Dev nD) : S4x2048x2048.Idx → EReal := m ((c : Thread nD τ).loc main_arg4)

/-- The mask array the region finds: the argument's bits, each widened to a 32-bit word. -/
theorem V_mask (c : Dev nD) :
    (V m c main_v0 : S4x8x2048x2048.Idx → BitVec 32) = extui 32 (Ma m c) natLt_1_32 := by
  dsimp only [V, hostOps0]
  after_results

/-! ## The index maps over the grid

Every window's block index in terms of the context window's `(b, h, qi, 0)`. -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

theorem idx5 : ∀ t : Fin cfg0.N, win0_5.index t (0 : Fin 4) < 4 ∧ win0_5.index t (1 : Fin 4) < 8
    ∧ win0_5.index t (2 : Fin 4) < 8 ∧ win0_5.index t (3 : Fin 4) = 0 :=
  (by decide +kernel : ∀ t : Fin grid0.N, _)

theorem idx6 : ∀ t : Fin cfg0.N, win0_6.index t (0 : Fin 4) = win0_5.index t (0 : Fin 4)
    ∧ win0_6.index t (1 : Fin 4) = win0_5.index t (1 : Fin 4) ∧ win0_6.index t (2 : Fin 4) = win0_5.index t (2 : Fin 4)
    ∧ win0_6.index t (3 : Fin 4) = 0 :=
  (by decide +kernel : ∀ t : Fin grid0.N, _)

theorem idx7 : ∀ t : Fin cfg0.N, win0_7.index t (0 : Fin 4) = win0_5.index t (0 : Fin 4)
    ∧ win0_7.index t (1 : Fin 4) = win0_5.index t (1 : Fin 4) ∧ win0_7.index t (2 : Fin 4) = win0_5.index t (2 : Fin 4)
    ∧ win0_7.index t (3 : Fin 4) = 0 :=
  (by decide +kernel : ∀ t : Fin grid0.N, _)

theorem idx0 : ∀ t : Fin cfg0.N, win0_0.index t (0 : Fin 4) = win0_5.index t (0 : Fin 4)
    ∧ win0_0.index t (1 : Fin 4) = win0_5.index t (1 : Fin 4) ∧ win0_0.index t (2 : Fin 4) = win0_5.index t (2 : Fin 4)
    ∧ win0_0.index t (3 : Fin 4) = 0 :=
  (by decide +kernel : ∀ t : Fin grid0.N, _)

theorem idx1 : ∀ t : Fin cfg0.N, win0_1.index t (0 : Fin 4) = win0_5.index t (0 : Fin 4)
    ∧ win0_1.index t (1 : Fin 4) = win0_5.index t (1 : Fin 4) ∧ win0_1.index t (2 : Fin 4) = 0
    ∧ win0_1.index t (3 : Fin 4) = 0 :=
  (by decide +kernel : ∀ t : Fin grid0.N, _)

theorem idx2 : ∀ t : Fin cfg0.N, win0_2.index t (0 : Fin 4) = win0_5.index t (0 : Fin 4)
    ∧ win0_2.index t (1 : Fin 4) = win0_5.index t (1 : Fin 4) ∧ win0_2.index t (2 : Fin 4) = 0
    ∧ win0_2.index t (3 : Fin 4) = 0 :=
  (by decide +kernel : ∀ t : Fin grid0.N, _)

theorem idx3 : ∀ t : Fin cfg0.N, win0_3.index t (0 : Fin 4) = win0_5.index t (0 : Fin 4)
    ∧ win0_3.index t (1 : Fin 4) = win0_5.index t (1 : Fin 4) ∧ win0_3.index t (2 : Fin 4) = win0_5.index t (2 : Fin 4)
    ∧ win0_3.index t (3 : Fin 4) = 0 :=
  (by decide +kernel : ∀ t : Fin grid0.N, _)

theorem idx4 : ∀ t : Fin cfg0.N, win0_4.index t (0 : Fin 3) = win0_5.index t (0 : Fin 4)
    ∧ win0_4.index t (1 : Fin 3) = win0_5.index t (2 : Fin 4) ∧ win0_4.index t (2 : Fin 3) = 0 :=
  (by decide +kernel : ∀ t : Fin grid0.N, _)

/-- The point of batch `b`, head `h`, query tile `qi` is number `b · 64 + h · 8 + qi`. -/
theorem idx_at : ∀ (b : Fin 4) (h : Fin 8) (qi : Fin 8),
    win0_5.index (⟨b.val * 64 + h.val * 8 + qi.val, by
      have := b.isLt; have := h.isLt; have := qi.isLt; show _ < 256; omega⟩ : Fin grid0.N)
      = ![b.val, h.val, qi.val, 0] := by
  decide +kernel

/-! ## The input blocks, entry by entry -/

/-- The q-block's row `r` is row `qi · 256 + r` of the queries of batch `b`, head `h`. -/
theorem q_entry (c : Dev nD) (t : Fin cfg0.N) (r : Fin 256) (d : Fin 64) (b : Fin 4) (h : Fin 8) (q : Fin 2048)
    (hb : b.val = win0_5.index t (0 : Fin 4)) (hh : h.val = win0_5.index t (1 : Fin 4))
    (hq : q.val = win0_5.index t (2 : Fin 4) * 256 + r.val) :
    iblk m c 0 t (ix4 (0 : Fin 1) (0 : Fin 1) r d) = Qa m c (ix4 b h q d) := by
  obtain ⟨f0, f1, f2, f3⟩ := idx0 t
  show V m c main_arg0 (((cfg0.win 0).blk t).view.emb (ix4 (0 : Fin 1) (0 : Fin 1) r d)) = _
  rw [V_main_arg0]
  refine congrArg (m ((c : Thread nD τ).loc main_arg0)) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 256 + 1 * r.val = q.val; omega
  | ⟨3, _⟩ => show win0_0.index t (3 : Fin 4) * 64 + 1 * d.val = d.val; omega

/-- The key block is the keys of batch `b`, head `h`, whole. -/
theorem k_entry (c : Dev nD) (t : Fin cfg0.N) (j : Fin 2048) (d : Fin 64) (b : Fin 4) (h : Fin 8)
    (hb : b.val = win0_5.index t (0 : Fin 4)) (hh : h.val = win0_5.index t (1 : Fin 4)) :
    iblk m c 1 t (ix4 (0 : Fin 1) (0 : Fin 1) j d) = Ka m c (ix4 b h j d) := by
  obtain ⟨f0, f1, f2, f3⟩ := idx1 t
  show V m c main_arg1 (((cfg0.win 1).blk t).view.emb (ix4 (0 : Fin 1) (0 : Fin 1) j d)) = _
  rw [V_main_arg1]
  refine congrArg (m ((c : Thread nD τ).loc main_arg1)) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * j.val = j.val; omega
  | ⟨3, _⟩ => show win0_1.index t (3 : Fin 4) * 64 + 1 * d.val = d.val; omega

/-- The value block is the values of batch `b`, head `h`, whole. -/
theorem v_entry (c : Dev nD) (t : Fin cfg0.N) (j : Fin 2048) (d : Fin 64) (b : Fin 4) (h : Fin 8)
    (hb : b.val = win0_5.index t (0 : Fin 4)) (hh : h.val = win0_5.index t (1 : Fin 4)) :
    iblk m c 2 t (ix4 (0 : Fin 1) (0 : Fin 1) j d) = Va m c (ix4 b h j d) := by
  obtain ⟨f0, f1, f2, f3⟩ := idx2 t
  show V m c main_arg2 (((cfg0.win 2).blk t).view.emb (ix4 (0 : Fin 1) (0 : Fin 1) j d)) = _
  rw [V_main_arg2]
  refine congrArg (m ((c : Thread nD τ).loc main_arg2)) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * j.val = j.val; omega
  | ⟨3, _⟩ => show win0_2.index t (3 : Fin 4) * 64 + 1 * d.val = d.val; omega

/-- The mask block's word at `(r, j)`, tested against zero, is the mask bit of row `qi · 256 + r`, key `j`. -/
theorem mask_entry (c : Dev nD) (t : Fin cfg0.N) (r : Fin 256) (j : Fin 2048) (b : Fin 4) (h : Fin 8) (q : Fin 2048)
    (hb : b.val = win0_5.index t (0 : Fin 4)) (hh : h.val = win0_5.index t (1 : Fin 4))
    (hq : q.val = win0_5.index t (2 : Fin 4) * 256 + r.val) :
    IntOp.cmpi .ne (iblk m c 3 t (ix4 (0 : Fin 1) (0 : Fin 1) r j)) 0#32 = Ma m c (ix4 b h q j) := by
  obtain ⟨f0, f1, f2, f3⟩ := idx3 t
  show IntOp.cmpi .ne ((V m c main_v0 : S4x8x2048x2048.Idx → BitVec 32)
    (((cfg0.win 3).blk t).view.emb (ix4 (0 : Fin 1) (0 : Fin 1) r j))) 0#32 = _
  rw [V_mask]
  refine (ne_zero_of_widened _).trans ?_
  refine congrArg (m ((c : Thread nD τ).loc main_arg3)) (funext fun a => Fin.ext ?_)
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 256 + 1 * r.val = q.val; omega
  | ⟨3, _⟩ => show win0_3.index t (3 : Fin 4) * 2048 + 1 * j.val = j.val; omega

/-- The bias block's row `r` is row `qi · 256 + r` of the bias of batch `b` (no head axis). -/
theorem bias_entry (c : Dev nD) (t : Fin cfg0.N) (r : Fin 256) (j : Fin 2048) (b : Fin 4) (q : Fin 2048)
    (hb : b.val = win0_5.index t (0 : Fin 4)) (hq : q.val = win0_5.index t (2 : Fin 4) * 256 + r.val) :
    iblk m c 4 t (ix3 (0 : Fin 1) r j) = Ea m c (ix3 b q j) := by
  obtain ⟨f0, f1, f2⟩ := idx4 t
  show V m c main_arg4 (((cfg0.win 4).blk t).view.emb (ix3 (0 : Fin 1) r j)) = _
  rw [V_main_arg4]
  refine congrArg (m ((c : Thread nD τ).loc main_arg4)) (funext fun a => Fin.ext ?_)
  match a with
  | ⟨0, _⟩ => show win0_4.index t (0 : Fin 3) * 1 + 1 * 0 = b.val; omega
  | ⟨1, _⟩ => show win0_4.index t (1 : Fin 3) * 256 + 1 * r.val = q.val; omega
  | ⟨2, _⟩ => show win0_4.index t (2 : Fin 3) * 2048 + 1 * j.val = j.val; omega

/-- Row `r` of the tile at point `t` is row `qi · 256 + r` of batch `b`, head `h`, as a row of scores. -/
theorem tileRow_at (c : Dev nD) (t : Fin cfg0.N) (r : Fin 256) (b : Fin 4) (h : Fin 8) (q : Fin 2048)
    (hb : b.val = win0_5.index t (0 : Fin 4)) (hh : h.val = win0_5.index t (1 : Fin 4))
    (hq : q.val = win0_5.index t (2 : Fin 4) * 256 + r.val) :
    tileRow (iblk m c 0 t) (iblk m c 1 t) (iblk m c 4 t) (iblk m c 3 t) r
      = scoreRow (Qa m c) (Ka m c) (Ma m c) (Ea m c) b h q := by
  unfold tileRow scoreRow
  exact congr (congr (congr (congrArg score (funext fun d => q_entry m c t r d b h q hb hh hq))
    (funext fun j => funext fun d => k_entry m c t j d b h hb hh))
    (funext fun j => mask_entry m c t r j b h q hb hh hq))
    (funext fun j => bias_entry m c t r j b q hb hq)

/-! ## What a point writes back, entry by entry

`y` is an index of the block and `i` the index of the array under it: same batch and head as the point, row
`qi · 256 + y₂`, last coordinate `y₃`. -/

/-- An entry of the block of scores is the array of scores there. -/
theorem scores_entry (c : Dev nD) (t : Fin cfg0.N) (y : S1x1x256x2048.Idx) (i : S4x8x2048x2048.Idx)
    (e0 : (i 0).val = win0_5.index t (0 : Fin 4)) (e1 : (i 1).val = win0_5.index t (1 : Fin 4))
    (e2 : (i 2).val = win0_5.index t (2 : Fin 4) * 256 + (y 2).val) (e3 : (i 3).val = (y 3).val) :
    k0_pay6 (iblk m c 0 t) (iblk m c 1 t) (iblk m c 4 t) (iblk m c 3 t) y = scoresG (Qa m c) (Ka m c) (Ma m c) (Ea m c) i := by
  have hrow := tileRow_at m c t (y 2) (i 0) (i 1) (i 2) e0 e1 e2
  have hj : (y 3 : Fin 2048) = i 3 := Fin.ext e3.symm
  refine (congrArg (k0_pay6 (iblk m c 0 t) (iblk m c 1 t) (iblk m c 4 t) (iblk m c 3 t)) (eq_ix4 y)).trans ?_
  refine (scoresTile_apply (iblk m c 0 t) (iblk m c 1 t) (iblk m c 4 t) (iblk m c 3 t) (y 0) (y 1) (y 2) (y 3)).trans ?_
  exact (congrFun hrow (y 3)).trans (congrArg (scoreRow (Qa m c) (Ka m c) (Ma m c) (Ea m c) (i 0) (i 1) (i 2)) hj)

/-- An entry of the block of attention weights is the array of weights there. -/
theorem attn_entry (c : Dev nD) (t : Fin cfg0.N) (y : S1x1x256x2048.Idx) (i : S4x8x2048x2048.Idx)
    (e0 : (i 0).val = win0_5.index t (0 : Fin 4)) (e1 : (i 1).val = win0_5.index t (1 : Fin 4))
    (e2 : (i 2).val = win0_5.index t (2 : Fin 4) * 256 + (y 2).val) (e3 : (i 3).val = (y 3).val) :
    k0_pay2 (k0_pay7 (iblk m c 0 t) (iblk m c 1 t) (iblk m c 4 t) (iblk m c 3 t)) y = attnG (Qa m c) (Ka m c) (Ma m c) (Ea m c) i := by
  have hrow := tileRow_at m c t (y 2) (i 0) (i 1) (i 2) e0 e1 e2
  have hj : (y 3 : Fin 2048) = i 3 := Fin.ext e3.symm
  refine (congrArg (k0_pay2 (k0_pay7 (iblk m c 0 t) (iblk m c 1 t) (iblk m c 4 t) (iblk m c 3 t))) (eq_ix4 y)).trans ?_
  refine (attnTile_apply (iblk m c 0 t) (iblk m c 1 t) (iblk m c 4 t) (iblk m c 3 t) (y 0) (y 1) (y 2) (y 3)).trans ?_
  exact (congrArg (fun s => weight s (y 3)) hrow).trans
    (congrArg (weight (scoreRow (Qa m c) (Ka m c) (Ma m c) (Ea m c) (i 0) (i 1) (i 2))) hj)

/-- An entry of the block of the context is the context array there. -/
theorem ctx_entry (c : Dev nD) (t : Fin cfg0.N) (y : S1x1x256x64.Idx) (i : S4x8x2048x64.Idx)
    (e0 : (i 0).val = win0_5.index t (0 : Fin 4)) (e1 : (i 1).val = win0_5.index t (1 : Fin 4))
    (e2 : (i 2).val = win0_5.index t (2 : Fin 4) * 256 + (y 2).val) (e3 : (i 3).val = (y 3).val) :
    k0_pay3 (k0_pay4 (iblk m c 2 t)) (k0_pay7 (iblk m c 0 t) (iblk m c 1 t) (iblk m c 4 t) (iblk m c 3 t)) y = ctxG (Qa m c) (Ka m c) (Va m c) (Ma m c) (Ea m c) i := by
  have hrow := tileRow_at m c t (y 2) (i 0) (i 1) (i 2) e0 e1 e2
  have hv : (fun (j : Fin 2048) (d : Fin 64) => iblk m c 2 t (ix4 (0 : Fin 1) (0 : Fin 1) j d))
      = fun j d => Va m c (ix4 (i 0) (i 1) j d) :=
    funext fun j => funext fun d => v_entry m c t j d (i 0) (i 1) e0 e1
  have hd : (y 3 : Fin 64) = i 3 := Fin.ext e3.symm
  refine (congrArg (k0_pay3 (k0_pay4 (iblk m c 2 t)) (k0_pay7 (iblk m c 0 t) (iblk m c 1 t) (iblk m c 4 t) (iblk m c 3 t))) (eq_ix4 y)).trans ?_
  refine (ctxTile_apply (iblk m c 0 t) (iblk m c 1 t) (iblk m c 4 t) (iblk m c 3 t) (iblk m c 2 t) (y 0) (y 1) (y 2) (y 3)).trans ?_
  exact (congr (congr (congrArg mix hrow) hv) hd)

/-- WHAT POINT `t` WRITES BACK to the scores is block `t` of `scoresG` of the argument arrays. -/
theorem flushed7_eq (c : Dev nD) (t : Fin cfg0.N) :
    (dats m 0 c).flushed 7 t = ((cfg0.win 7).blk t).view.read (Elt Ideal) (scoresG (Qa m c) (Ka m c) (Ma m c) (Ea m c)) := by
  rw [Value.flushed7]
  unfold out0_7
  rw [View.canon_unit_zero hz4]
  simp only [View.ld_unit_zero (S := S1x1x256x64) hz4, View.ld_unit_zero (S := S1x1x2048x64) hz4,
    View.ld_unit_zero (S := S1x256x2048) hz3, View.ld_unit_zero (S := S1x1x256x2048) hz4]
  obtain ⟨g0, g1, g2, g3⟩ := idx7 t
  funext y
  show k0_pay6 (iblk m c 0 t) (iblk m c 1 t) (iblk m c 4 t) (iblk m c 3 t) y = scoresG (Qa m c) (Ka m c) (Ma m c) (Ea m c) (((cfg0.win 7).blk t).view.emb y)
  refine scores_entry m c t y _ ?_ ?_ ?_ ?_
  · show win0_7.index t (0 : Fin 4) * 1 + 1 * (y 0).val = _
    have : (y 0).val < 1 := (y 0).isLt
    omega
  · show win0_7.index t (1 : Fin 4) * 1 + 1 * (y 1).val = _
    have : (y 1).val < 1 := (y 1).isLt
    omega
  · show win0_7.index t (2 : Fin 4) * 256 + 1 * (y 2).val = _
    omega
  · show win0_7.index t (3 : Fin 4) * 2048 + 1 * (y 3).val = _
    omega

/-- WHAT POINT `t` WRITES BACK to the attention weights is block `t` of `attnG` of the argument arrays. -/
theorem flushed6_eq (c : Dev nD) (t : Fin cfg0.N) :
    (dats m 0 c).flushed 6 t = ((cfg0.win 6).blk t).view.read (Elt Ideal) (attnG (Qa m c) (Ka m c) (Ma m c) (Ea m c)) := by
  rw [Value.flushed6]
  unfold out0_6
  rw [View.canon_unit_zero hz4]
  simp only [View.ld_unit_zero (S := S1x1x256x64) hz4, View.ld_unit_zero (S := S1x1x2048x64) hz4,
    View.ld_unit_zero (S := S1x256x2048) hz3, View.ld_unit_zero (S := S1x1x256x2048) hz4]
  obtain ⟨g0, g1, g2, g3⟩ := idx6 t
  funext y
  show k0_pay2 (k0_pay7 (iblk m c 0 t) (iblk m c 1 t) (iblk m c 4 t) (iblk m c 3 t)) y = attnG (Qa m c) (Ka m c) (Ma m c) (Ea m c) (((cfg0.win 6).blk t).view.emb y)
  refine attn_entry m c t y _ ?_ ?_ ?_ ?_
  · show win0_6.index t (0 : Fin 4) * 1 + 1 * (y 0).val = _
    have : (y 0).val < 1 := (y 0).isLt
    omega
  · show win0_6.index t (1 : Fin 4) * 1 + 1 * (y 1).val = _
    have : (y 1).val < 1 := (y 1).isLt
    omega
  · show win0_6.index t (2 : Fin 4) * 256 + 1 * (y 2).val = _
    omega
  · show win0_6.index t (3 : Fin 4) * 2048 + 1 * (y 3).val = _
    omega

/-- WHAT POINT `t` WRITES BACK to the context is block `t` of `ctxG` of the argument arrays. -/
theorem flushed5_eq (c : Dev nD) (t : Fin cfg0.N) :
    (dats m 0 c).flushed 5 t
      = ((cfg0.win 5).blk t).view.read (Elt Ideal) (ctxG (Qa m c) (Ka m c) (Va m c) (Ma m c) (Ea m c)) := by
  rw [Value.flushed5]
  unfold out0_5
  rw [View.canon_unit_zero hz4]
  simp only [View.ld_unit_zero (S := S1x1x256x64) hz4, View.ld_unit_zero (S := S1x1x2048x64) hz4,
    View.ld_unit_zero (S := S1x256x2048) hz3, View.ld_unit_zero (S := S1x1x256x2048) hz4]
  obtain ⟨g0, g1, g2, g3⟩ := idx5 t
  funext y
  show k0_pay3 (k0_pay4 (iblk m c 2 t)) (k0_pay7 (iblk m c 0 t) (iblk m c 1 t) (iblk m c 4 t) (iblk m c 3 t)) y
    = ctxG (Qa m c) (Ka m c) (Va m c) (Ma m c) (Ea m c) (((cfg0.win 5).blk t).view.emb y)
  refine ctx_entry m c t y _ ?_ ?_ ?_ ?_
  · show win0_5.index t (0 : Fin 4) * 1 + 1 * (y 0).val = _
    have : (y 0).val < 1 := (y 0).isLt
    omega
  · show win0_5.index t (1 : Fin 4) * 1 + 1 * (y 1).val = _
    have : (y 1).val < 1 := (y 1).isLt
    omega
  · show win0_5.index t (2 : Fin 4) * 256 + 1 * (y 2).val = _
    omega
  · show win0_5.index t (3 : Fin 4) * 64 + 1 * (y 3).val = _
    omega

/-! ## The blocks tile each array -/

/-- An index of the array is in point `t`'s block of window 5 iff each coordinate is in the block's range on its axis. -/
theorem mem_blk5 (t : Fin cfg0.N) (i : S4x8x2048x64.Idx) :
    i ∈ ((cfg0.win 5).blk t).view.set ↔ ∀ a : Fin 4, win0_5.index t a * S1x1x256x64.size a ≤ (i a).val
      ∧ (i a).val < win0_5.index t a * S1x1x256x64.size a + S1x1x256x64.size a := by
  show i ∈ ((View.whole main_v1_0).slice (win0_5.rect t)).set ↔ _
  rw [View.set_slice_whole, Rect.mem_set_unit]
  exact Iff.rfl

/-- Every index of the array is in some point's block of window 5: the point of its batch, its head and its row's tile. -/
theorem cover5 (i : S4x8x2048x64.Idx) :
    ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 2048 := (i 2).isLt
  have h3 : (i 3).val < 64 := (i 3).isLt
  obtain ⟨t, ht⟩ : ∃ t : Fin cfg0.N, win0_5.index t = ![(i 0).val, (i 1).val, (i 2).val / 256, 0] :=
    ⟨_, idx_at ⟨(i 0).val, h0⟩ ⟨(i 1).val, h1⟩ ⟨(i 2).val / 256, by omega⟩⟩
  have q0 : win0_5.index t (0 : Fin 4) = (i 0).val := congrFun ht 0
  have q1 : win0_5.index t (1 : Fin 4) = (i 1).val := congrFun ht 1
  have q2 : win0_5.index t (2 : Fin 4) = (i 2).val / 256 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 64 ≤ (i 3).val ∧ (i 3).val < win0_5.index t (3 : Fin 4) * 64 + 64; omega

/-- An index of the array is in point `t`'s block of window 6 iff each coordinate is in the block's range on its axis. -/
theorem mem_blk6 (t : Fin cfg0.N) (i : S4x8x2048x2048.Idx) :
    i ∈ ((cfg0.win 6).blk t).view.set ↔ ∀ a : Fin 4, win0_6.index t a * S1x1x256x2048.size a ≤ (i a).val
      ∧ (i a).val < win0_6.index t a * S1x1x256x2048.size a + S1x1x256x2048.size a := by
  show i ∈ ((View.whole main_v1_1).slice (win0_6.rect t)).set ↔ _
  rw [View.set_slice_whole, Rect.mem_set_unit]
  exact Iff.rfl

/-- Every index of the array is in some point's block of window 6: the point of its batch, its head and its row's tile. -/
theorem cover6 (i : S4x8x2048x2048.Idx) :
    ∃ t : Fin cfg0.N, (cfg0.win 6).flush t = true ∧ i ∈ ((cfg0.win 6).blk t).view.set := by
  have h0 : (i 0).val < 4 := (i 0).isLt
  have h1 : (i 1).val < 8 := (i 1).isLt
  have h2 : (i 2).val < 2048 := (i 2).isLt
  have h3 : (i 3).val < 2048 := (i 3).isLt
  obtain ⟨t, ht⟩ : ∃ t : Fin cfg0.N, win0_5.index t = ![(i 0).val, (i 1).val, (i 2).val / 256, 0] :=
    ⟨_, idx_at ⟨(i 0).val, h0⟩ ⟨(i 1).val, h1⟩ ⟨(i 2).val / 256, by omega⟩⟩
  have q0 : win0_5.index t (0 : Fin 4) = (i 0).val := congrFun ht 0
  have q1 : win0_5.index t (1 : Fin 4) = (i 1).val := congrFun ht 1
  have q2 : win0_5.index t (2 : Fin 4) = (i 2).val / 256 := congrFun ht 2
  have q3 : win0_5.index t (3 : Fin 4) = 0 := congrFun ht 3
  obtain ⟨g0, g1, g2, g3⟩ := idx6 t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 256 ≤ (i 2).val ∧ (i 2).val < win0_6.index t (2 : Fin 4) * 256 + 256; omega
  | ⟨3, _⟩ => show win0_6.index t (3 : Fin 4) * 2048 ≤ (i 3).val ∧ (i 3).val < win0_6.index t (3 : Fin 4) * 2048 + 2048; omega

/-- An index of the array is in point `t`'s block of window 7 iff each coordinate is in the block's range on its axis. -/
theorem mem_blk7 (t : Fin cfg0.N) (i : S4x8x2048x2048.Idx) :
    i ∈ ((cfg0.win 7).blk t).view.set ↔ ∀ a : Fin 4, win0_7.index t a * S1x1x256x2048.size a ≤ (i a).val
      ∧ (i a).val < win0_7.index t a * S1x1x256x2048.size a + S1x1x256x2048.size a := by
  show i ∈ ((View.whole main_v1_2).slice (win0_7.rect t)).set ↔ _
  rw [View.set_slice_whole, Rect.mem_set_unit]
  exact Iff.rfl

/-- Every index of the array is in some point's block of window 7: the point of its batch, its head and its row's tile. -/
theorem cover7 (i : S4x8x2048x2048.Idx) :
    ∃ t : Fin cfg0.N, (cfg0.win 7).flush t = true ∧ i ∈ ((cfg0.win 7).blk t).view.set := by
  have h0 : (i 0).val < 4 := (i 0).isLt
  have h1 : (i 1).val < 8 := (i 1).isLt
  have h2 : (i 2).val < 2048 := (i 2).isLt
  have h3 : (i 3).val < 2048 := (i 3).isLt
  obtain ⟨t, ht⟩ : ∃ t : Fin cfg0.N, win0_5.index t = ![(i 0).val, (i 1).val, (i 2).val / 256, 0] :=
    ⟨_, idx_at ⟨(i 0).val, h0⟩ ⟨(i 1).val, h1⟩ ⟨(i 2).val / 256, by omega⟩⟩
  have q0 : win0_5.index t (0 : Fin 4) = (i 0).val := congrFun ht 0
  have q1 : win0_5.index t (1 : Fin 4) = (i 1).val := congrFun ht 1
  have q2 : win0_5.index t (2 : Fin 4) = (i 2).val / 256 := congrFun ht 2
  have q3 : win0_5.index t (3 : Fin 4) = 0 := congrFun ht 3
  obtain ⟨g0, g1, g2, g3⟩ := idx7 t
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 256 ≤ (i 2).val ∧ (i 2).val < win0_7.index t (2 : Fin 4) * 256 + 256; omega
  | ⟨3, _⟩ => show win0_7.index t (3 : Fin 4) * 2048 ≤ (i 3).val ∧ (i 3).val < win0_7.index t (3 : Fin 4) * 2048 + 2048; omega

/-! ## The arrays after the run -/

theorem final5 (c : Dev nD) :
    (dats m 0 c).arrAt 5 cfg0.N = ctxG (Qa m c) (Ka m c) (Va m c) (Ma m c) (Ea m c) :=
  (dats m 0 c).arrAt_eq_of_cover 5 (ctxG (Qa m c) (Ka m c) (Va m c) (Ma m c) (Ea m c)) (fun t _ => flushed5_eq m c t) cover5

theorem final6 (c : Dev nD) : (dats m 0 c).arrAt 6 cfg0.N = attnG (Qa m c) (Ka m c) (Ma m c) (Ea m c) :=
  (dats m 0 c).arrAt_eq_of_cover 6 (attnG (Qa m c) (Ka m c) (Ma m c) (Ea m c)) (fun t _ => flushed6_eq m c t) cover6

theorem final7 (c : Dev nD) : (dats m 0 c).arrAt 7 cfg0.N = scoresG (Qa m c) (Ka m c) (Ma m c) (Ea m c) :=
  (dats m 0 c).arrAt_eq_of_cover 7 (scoresG (Qa m c) (Ka m c) (Ma m c) (Ea m c)) (fun t _ => flushed7_eq m c t) cover7

/-- The kernel's run: the context, the attention weights and the scores end as the row-wise attention functions of the
    argument arrays, which end unchanged. -/
theorem run : θ_run defs (onTc (τ := τ) (main (F := Ideal))) ⟨m, fun _ => 0, ρ⟩ fun r => ∀ c : Dev nD,
      r.2.mem ((c : Thread nD τ).loc main_v1_0) = ctxG (Qa m c) (Ka m c) (Va m c) (Ma m c) (Ea m c)
      ∧ r.2.mem ((c : Thread nD τ).loc main_v1_1) = attnG (Qa m c) (Ka m c) (Ma m c) (Ea m c)
      ∧ r.2.mem ((c : Thread nD τ).loc main_v1_2) = scoresG (Qa m c) (Ka m c) (Ma m c) (Ea m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
      (h c).2.2.1.trans (final7 m c), (h c).2.2.2⟩)
    (Value.run_blocks m ρ)

end Cert.KernelIdeal.Arrays

end
-- ==== Proof.RefValue.lean ====
import proofs.«101123_j86955907875523_1_alg».proof.Proof.Gen.ReferenceIdeal.Read
import proofs.«101123_j86955907875523_1_alg».proof.Proof.AttentionSpec

/-!
# The reference's three results are the row-wise attention functions

Read one operation at a time, the whole-array reference forms at index `(b, h, r, j)` the masked score of row
`(b, h, r)` against key `j`; the row's maximum (a maximum against `-∞` changes nothing); the exponential of the score less
that maximum; the row's sum of those (the initial value `0` adds nothing); their quotient; and, at `(b, h, r, d)`, the sum
over the keys of the quotient times the value. These are `scoresG`, `attnG` and `ctxG`.
-/

noncomputable section

namespace Cert.ReferenceIdeal.RefValue

open Cert.ReferenceIdeal Cert.ReferenceIdeal.Gen Cert.ReferenceIdeal.Read Idealize.ShloMosaic Idealize.ShloMosaic.ValueIdx
open Cert.Attention

variable (x0 x1 x2 : (⟨S4x8x2048x64, .f32⟩ : BufTy).Contents (Elt Ideal))
  (x3 : (⟨S4x8x2048x2048, .i1⟩ : BufTy).Contents (Elt Ideal)) (x4 : (⟨S4x2048x2048, .f32⟩ : BufTy).Contents (Elt Ideal))

/-- The masked score at `(b, h, r, j)`. -/
theorem score_at (i : S4x8x2048x2048.Idx) :
    val_main_v6 (F := Ideal) x0 x1 x3 x4 i = scoreRow x0 x1 x3 x4 (i 0) (i 1) (i 2) (i 3) := by
  rw [val_main_v6_apply, val_main_call0_v0_apply, val_main_cst_0_apply, val_main_v5_apply, val_main_v2_apply,
    val_main_v0_apply, val_main_v1_apply, val_main_cst_apply, val_main_v4_apply, val_main_v3_apply]
  have e0 : ∀ k : Fin 64, lidx_main_v0 i k = ix4 (i 0) (i 1) (i 2) k := fun k => funext fun a => Fin.ext (by
    match a with | ⟨0, _⟩ => rfl | ⟨1, _⟩ => rfl | ⟨2, _⟩ => rfl | ⟨3, _⟩ => rfl)
  have e1 : ∀ k : Fin 64, ridx_main_v0 i k = ix4 (i 0) (i 1) (i 3) k := fun k => funext fun a => Fin.ext (by
    match a with | ⟨0, _⟩ => rfl | ⟨1, _⟩ => rfl | ⟨2, _⟩ => rfl | ⟨3, _⟩ => rfl)
  have e4 : idx_main_v3 (idx_main_v4 i) = ix3 (i 0) (i 2) (i 3) := funext fun a => Fin.ext (by
    match a with | ⟨0, _⟩ => rfl | ⟨1, _⟩ => rfl | ⟨2, _⟩ => rfl)
  have e3 : x3 i = x3 (ix4 (i 0) (i 1) (i 2) (i 3)) := congrArg x3 (eq_ix4 i)
  simp only [e0, e1, e4]
  rw [e3]
  rfl

/-- The row's maximum at `(b, h, r)`. -/
theorem rowMax_at (j : S4x8x2048.Idx) :
    val_main_v9 (F := Ideal) x0 x1 x3 x4 j = rowMax (scoreRow x0 x1 x3 x4 (j 0) (j 1) (j 2)) := by
  have hR : S4x8x2048x2048.Reduces [3] S4x8x2048 := by decide
  rw [val_main_v9_apply, val_main_v8_apply, val_main_cst_2_apply]
  refine (max_negInf _).trans ?_
  unfold val_main_v7
  rw [Host.reduce_eq_fold_single FloatOps.maximumf _ _ reducesTo_S4x8x2048x2048_S4x8x2048_d3 hR h_S_ j]
  unfold rowMax
  refine congrArg (fun f => (Finset.univ : Finset (Fin 2048)).fold max (Ideal.ofBits .f32 0xFF800000#32) f)
    (funext fun k => ?_)
  exact score_at x0 x1 x3 x4 (hR.lift j k)

/-- The exponential of the score less the row's maximum, at `(b, h, r, j)`. -/
theorem expo_at (i : S4x8x2048x2048.Idx) :
    val_main_v13 (F := Ideal) x0 x1 x3 x4 i = expo (scoreRow x0 x1 x3 x4 (i 0) (i 1) (i 2)) (i 3) := by
  rw [val_main_v13_apply, val_main_v12_apply, val_main_v11_apply, val_main_v10_apply, score_at, rowMax_at]
  rfl

/-- The row's sum of exponentials at `(b, h, r)`. -/
theorem rowSum_at (j : S4x8x2048.Idx) :
    val_main_v14 (F := Ideal) x0 x1 x3 x4 j = rowSum (scoreRow x0 x1 x3 x4 (j 0) (j 1) (j 2)) := by
  rw [val_main_v14_apply, val_main_cst_3_apply]
  refine (congrArg (· + _) Ideal.ofBits_zero_f32).trans ((zero_add _).trans ?_)
  unfold rowSum
  refine Finset.sum_congr rfl fun k _ => ?_
  exact expo_at x0 x1 x3 x4 (idx_main_v14 j k)

/-- The softmax weight at `(b, h, r, j)`. -/
theorem weight_at (i : S4x8x2048x2048.Idx) :
    val_main_v17 (F := Ideal) x0 x1 x3 x4 i = weight (scoreRow x0 x1 x3 x4 (i 0) (i 1) (i 2)) (i 3) := by
  rw [val_main_v17_apply, val_main_v16_apply, val_main_v15_apply, expo_at, rowSum_at]
  rfl

/-- The context at `(b, h, r, d)`. -/
theorem mix_at (i : S4x8x2048x64.Idx) :
    val_main_v18 (F := Ideal) x0 x1 x2 x3 x4 i
      = mix (scoreRow x0 x1 x3 x4 (i 0) (i 1) (i 2)) (fun j d => x2 (ix4 (i 0) (i 1) j d)) (i 3) := by
  rw [val_main_v18_apply]
  unfold mix
  refine Finset.sum_congr rfl fun k _ => ?_
  refine congrArg₂ (· * ·) (weight_at x0 x1 x3 x4 (lidx_main_v18 i k)) (congrArg x2 (funext fun a => Fin.ext ?_))
  match a with | ⟨0, _⟩ => rfl | ⟨1, _⟩ => rfl | ⟨2, _⟩ => rfl | ⟨3, _⟩ => rfl

/-- The reference's scores are `scoresG` of its arguments. -/
theorem scores_eq : val_main_v6 (F := Ideal) x0 x1 x3 x4 = scoresG x0 x1 x3 x4 :=
  funext fun i => score_at x0 x1 x3 x4 i

/-- The reference's attention weights are `attnG` of its arguments. -/
theorem attn_eq : val_main_v17 (F := Ideal) x0 x1 x3 x4 = attnG x0 x1 x3 x4 :=
  funext fun i => weight_at x0 x1 x3 x4 i

/-- The reference's context is `ctxG` of its arguments. -/
theorem ctx_eq : val_main_v18 (F := Ideal) x0 x1 x2 x3 x4 = ctxG x0 x1 x2 x3 x4 :=
  funext fun i => mix_at x0 x1 x2 x3 x4 i

end Cert.ReferenceIdeal.RefValue

end
-- ==== Proof.lean ====
/- Masked, biased attention over f32[4, 8, 2048, 64] queries, keys and values: a tiled kernel against the whole-array
   formula, equal on the extended reals.

   Both programs return three arrays. The scores: at (b, h, r, j), `-1e9` where the mask bit is set and
   `(∑ d, Q[b,h,r,d] · K[b,h,j,d]) · 1/8 + E[b,r,j]` elsewhere (the bias has no head axis). The attention weights: each row's
   softmax, `exp (s_j - max_j s) / ∑_j exp (s_j - max_j s)`, the maximum folded from `-∞`. The context: at (b, h, r, d) the sum
   over the keys of the weight times `V[b,h,j,d]`. Proof/AttentionSpec.lean states them one query row at a time.

   The kernel walks a grid of 4 · 8 · 8 points; at a point it holds 256 query rows, the head's keys and values, and the
   matching rows of the mask (widened to 32-bit words before the call, and tested against zero inside, which gives the
   bit back) and of the bias; it transposes the keys, contracts into a zero accumulator, and stores a block of each result.
   Proof/Tile.lean reads one tile's three stored blocks at an entry as the row functions of the loaded blocks;
   Proof/Arrays.lean reads each loaded block as rows of the argument arrays, so that what a point writes back is that
   point's block of the three functions of the arguments, and the 256 blocks tile each array. The reference forms the same
   three functions operation by operation (Proof/RefValue.lean; its extra maximum against `-∞` and its initial `0` change
   nothing). The two sides meet in the same functions of the same arguments: only sums are re-indexed, no law that would
   need finite inputs is used, and a change of float format is the identity on the extended reals.

   The three frames are the generated ones (the reference's is its generated run with the results dropped); the
   idealization rewrote nothing, so `preserves` is trivial. -/
import proofs.«101123_j86955907875523_1_alg».proof.Defs
import proofs.«101123_j86955907875523_1_alg».proof.Proof.Gen.Kernel
import proofs.«101123_j86955907875523_1_alg».proof.Proof.Gen.Kernel.Skeleton
import proofs.«101123_j86955907875523_1_alg».proof.Proof.Gen.Kernel.Launch
import proofs.«101123_j86955907875523_1_alg».proof.Proof.Gen.Kernel.Points
import proofs.«101123_j86955907875523_1_alg».proof.Proof.Gen.Kernel.Frame
import proofs.«101123_j86955907875523_1_alg».proof.Proof.Gen.KernelIdeal
import proofs.«101123_j86955907875523_1_alg».proof.Proof.Gen.KernelIdeal.Skeleton
import proofs.«101123_j86955907875523_1_alg».proof.Proof.Gen.KernelIdeal.Launch
import proofs.«101123_j86955907875523_1_alg».proof.Proof.Gen.KernelIdeal.Points
import proofs.«101123_j86955907875523_1_alg».proof.Proof.Gen.KernelIdeal.Frame
import proofs.«101123_j86955907875523_1_alg».proof.Proof.Gen.ReferenceIdeal
import proofs.«101123_j86955907875523_1_alg».proof.Proof.Gen.Pre_finite_inputs
import proofs.«101123_j86955907875523_1_alg».proof.Proof.Gen.KernelIdeal.Value
import proofs.«101123_j86955907875523_1_alg».proof.Proof.Gen.ReferenceIdeal.Run
import proofs.«101123_j86955907875523_1_alg».proof.Proof.Gen.ReferenceIdeal.Read
import proofs.«101123_j86955907875523_1_alg».proof.Proof.Arrays
import proofs.«101123_j86955907875523_1_alg».proof.Proof.RefValue
import Idealize.ShloMosaic.Adequacy
import Idealize.ShloMosaic.Init

noncomputable section

namespace Cert.Proof

open Idealize.ShloMosaic Idealize.ShloMosaic.TcCoe Idealize.SL.Sem Cert.Attention

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the three results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- Run from memories that agree on the five arguments, both programs end with the context at `ctxG`, the attention
    weights at `attnG` and the scores at `scoresG` of those arguments. -/
theorem algebraic : Cert.algebraic_KernelIdeal_ReferenceIdeal := by
  intro m ρ m' ρ' _ hagree
  refine ⟨fun c => ctxG (Cert.KernelIdeal.Arrays.Qa m c) (Cert.KernelIdeal.Arrays.Ka m c) (Cert.KernelIdeal.Arrays.Va m c)
      (Cert.KernelIdeal.Arrays.Ma m c) (Cert.KernelIdeal.Arrays.Ea m c),
    fun c => attnG (Cert.KernelIdeal.Arrays.Qa m c) (Cert.KernelIdeal.Arrays.Ka m c) (Cert.KernelIdeal.Arrays.Ma m c)
      (Cert.KernelIdeal.Arrays.Ea m c),
    fun c => scoresG (Cert.KernelIdeal.Arrays.Qa m c) (Cert.KernelIdeal.Arrays.Ka m c) (Cert.KernelIdeal.Arrays.Ma m c)
      (Cert.KernelIdeal.Arrays.Ea m c),
    Cert.KernelIdeal.Arrays.run m ρ, ?_⟩
  refine (θ_run Cert.ReferenceIdeal.defs _ _).mono (fun _ h c => ?_)
    (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Read.val_main_v18_eq, Cert.ReferenceIdeal.RefValue.ctx_eq, a0, a1, a2, a3, a4]
  · rw [Cert.ReferenceIdeal.Read.val_main_v17_eq, Cert.ReferenceIdeal.RefValue.attn_eq, a0, a1, a3, a4]
  · rw [Cert.ReferenceIdeal.Read.val_main_v6_eq, Cert.ReferenceIdeal.RefValue.scores_eq, a0, a1, a3, a4]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
